-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x64 : Shape := ⟨4, ![16, 64, 64, 64]⟩
abbrev S16x64x64x64x25 : Shape := ⟨5, ![16, 64, 64, 64, 25]⟩
abbrev S256x1600 : Shape := ⟨2, ![256, 1600]⟩
abbrev S_ : Shape := ⟨0, ![]⟩

class Facts : Prop where
  bcast_S_S16x64x64x64 : S_.BroadcastsInDim S16x64x64x64 (![] : Fin 0 → Fin S16x64x64x64.rank)
  reducesTo_S16x64x64x64_S_d0_1_2_3 : S16x64x64x64.ReducesTo [0, 1, 2, 3] S_
  h_S_ : 0 < S_.numel
  bcast_S_S256x1600 : S_.BroadcastsInDim S256x1600 (![] : Fin 0 → Fin S256x1600.rank)
  reducesTo_S256x1600_S_d0_1 : S256x1600.ReducesTo [0, 1] S_

variable [Facts]

def fn {F : FTy → Type} [FloatOps F] (main_arg0 : FVec F S16x64x64x64 .f32) (main_arg1 : IVec S16x64x64x64x25 32) (main_arg2 : IVec S16x64x64x64x25 1) (main_arg3 : FVec F S256x1600 .f32) : IVec S_ 1 :=
  let main_v0 : FVec F S16x64x64x64 .f32 := Host.absf main_arg0
  let main_cst : FVec F S_ .f32 := constant S_ .f32 0x7F800000#32
  let main_v1 : FVec F S16x64x64x64 .f32 := broadcastInDim S16x64x64x64 ![] bcast_S_S16x64x64x64 main_cst
  let main_v2 : IVec S16x64x64x64 1 := cmpf .olt main_v0 main_v1
  let main_c : IVec S_ 1 := constantI S_ 1 1#1
  let main_v3 : IVec S_ 1 := (fun x v => Host.reduce IntOp.andi x v reducesTo_S16x64x64x64_S_d0_1_2_3 h_S_) main_v2 main_c
  let main_v4 : FVec F S256x1600 .f32 := Host.absf main_arg3
  let main_cst_0 : FVec F S_ .f32 := constant S_ .f32 0x7F800000#32
  let main_v5 : FVec F S256x1600 .f32 := broadcastInDim S256x1600 ![] bcast_S_S256x1600 main_cst_0
  let main_v6 : IVec S256x1600 1 := cmpf .olt main_v4 main_v5
  let main_c_1 : IVec S_ 1 := constantI S_ 1 1#1
  let main_v7 : IVec S_ 1 := (fun x v => Host.reduce IntOp.andi x v reducesTo_S256x1600_S_d0_1 h_S_) main_v6 main_c_1
  let main_v8 : IVec S_ 1 := andi main_v3 main_v7
  main_v8
-- ==== Kernel.lean ====
abbrev S16x64x64x64 : Shape := ⟨4, ![16, 64, 64, 64]⟩
abbrev S16x64x64x64x25 : Shape := ⟨5, ![16, 64, 64, 64, 25]⟩
abbrev S256x1600 : Shape := ⟨2, ![256, 1600]⟩
abbrev S4194304 : Shape := ⟨1, ![4194304]⟩
abbrev S_ : Shape := ⟨0, ![]⟩
abbrev S16x64x64x64x25x1 : Shape := ⟨6, ![16, 64, 64, 64, 25, 1]⟩
abbrev S1 : Shape := ⟨1, ![1]⟩
abbrev S1x1x1x1x1x1 : Shape := ⟨6, ![1, 1, 1, 1, 1, 1]⟩
abbrev S64x25x16x64x64 : Shape := ⟨5, ![64, 25, 16, 64, 64]⟩
abbrev S1600x65536 : Shape := ⟨2, ![1600, 65536]⟩
abbrev S256x65536 : Shape := ⟨2, ![256, 65536]⟩
abbrev S1600x1024 : Shape := ⟨2, ![1600, 1024]⟩
abbrev S256x1024 : Shape := ⟨2, ![256, 1024]⟩
abbrev S256x16x64x64 : Shape := ⟨4, ![256, 16, 64, 64]⟩
abbrev S16x256x64x64 : Shape := ⟨4, ![16, 256, 64, 64]⟩

abbrev nBuf : Space → Nat
  | .hbm => 35
  | .vmem => 5
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64x25, .i32⟩
  | .hbm, ⟨2, _⟩ => ⟨S16x64x64x64x25, .i1⟩
  | .hbm, ⟨3, _⟩ => ⟨S256x1600, .f32⟩
  | .hbm, ⟨4, _⟩ => ⟨S4194304, .f32⟩
  | .hbm, ⟨5, _⟩ => ⟨S_, .i32⟩
  | .hbm, ⟨6, _⟩ => ⟨S16x64x64x64x25, .i32⟩
  | .hbm, ⟨7, _⟩ => ⟨S16x64x64x64x25, .i1⟩
  | .hbm, ⟨8, _⟩ => ⟨S_, .i32⟩
  | .hbm, ⟨9, _⟩ => ⟨S16x64x64x64x25, .i32⟩
  | .hbm, ⟨10, _⟩ => ⟨S16x64x64x64x25, .i32⟩
  | .hbm, ⟨11, _⟩ => ⟨S16x64x64x64x25, .i32⟩
  | .hbm, ⟨12, _⟩ => ⟨S16x64x64x64x25x1, .i32⟩
  | .hbm, ⟨13, _⟩ => ⟨S1, .i32⟩
  | .hbm, ⟨14, _⟩ => ⟨S_, .i32⟩
  | .hbm, ⟨15, _⟩ => ⟨S16x64x64x64x25x1, .i32⟩
  | .hbm, ⟨16, _⟩ => ⟨S16x64x64x64x25x1, .i1⟩
  | .hbm, ⟨17, _⟩ => ⟨S1x1x1x1x1x1, .i32⟩
  | .hbm, ⟨18, _⟩ => ⟨S16x64x64x64x25x1, .i32⟩
  | .hbm, ⟨19, _⟩ => ⟨S16x64x64x64x25x1, .i1⟩
  | .hbm, ⟨20, _⟩ => ⟨S16x64x64x64x25x1, .i1⟩
  | .hbm, ⟨21, _⟩ => ⟨S_, .i1⟩
  | .hbm, ⟨22, _⟩ => ⟨S16x64x64x64x25, .i1⟩
  | .hbm, ⟨23, _⟩ => ⟨S16x64x64x64x25, .f32⟩
  | .hbm, ⟨24, _⟩ => ⟨S_, .f32⟩
  | .hbm, ⟨25, _⟩ => ⟨S16x64x64x64x25, .f32⟩
  | .hbm, ⟨26, _⟩ => ⟨S16x64x64x64x25, .f32⟩
  | .hbm, ⟨27, _⟩ => ⟨S_, .f32⟩
  | .hbm, ⟨28, _⟩ => ⟨S16x64x64x64x25, .f32⟩
  | .hbm, ⟨29, _⟩ => ⟨S16x64x64x64x25, .f32⟩
  | .hbm, ⟨30, _⟩ => ⟨S64x25x16x64x64, .f32⟩
  | .hbm, ⟨31, _⟩ => ⟨S1600x65536, .f32⟩
  | .hbm, ⟨32, _⟩ => ⟨S256x65536, .f32⟩
  | .hbm, ⟨33, _⟩ => ⟨S256x16x64x64, .f32⟩
  | .hbm, ⟨34, _⟩ => ⟨S16x256x64x64, .f32⟩
  | .local _ .vmem, ⟨0, _⟩ => ⟨S256x1600, .f32⟩
  | .local _ .vmem, ⟨1, _⟩ => ⟨S1600x1024, .f32⟩
  | .local _ .vmem, ⟨2, _⟩ => ⟨S1600x1024, .f32⟩
  | .local _ .vmem, ⟨3, _⟩ => ⟨S256x1024, .f32⟩
  | .local _ .vmem, ⟨4, _⟩ => ⟨S256x1024, .f32⟩
  | _, _ => ⟨S16x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_cst : Ref sig .tc := ⟨.hbm, 27, rfl⟩
abbrev main_call1_v0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1600x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x64x64x64_S4194304 : S16x64x64x64.ShapeCasts S4194304
  bcast_S_S16x64x64x64x25 : S_.BroadcastsInDim S16x64x64x64x25 (![] : Fin 0 → Fin S16x64x64x64x25.rank)
  bcast_S16x64x64x64x25_S16x64x64x64x25x1_0_1_2_3_4 : S16x64x64x64x25.BroadcastsInDim S16x64x64x64x25x1 (![0, 1, 2, 3, 4] : Fin 5 → Fin S16x64x64x64x25x1.rank)
  bcast_S_S16x64x64x64x25x1 : S_.BroadcastsInDim S16x64x64x64x25x1 (![] : Fin 0 → Fin S16x64x64x64x25x1.rank)
  bcast_S1_S1x1x1x1x1x1_5 : S1.BroadcastsInDim S1x1x1x1x1x1 (![5] : Fin 1 → Fin S1x1x1x1x1x1.rank)
  bcast_S1x1x1x1x1x1_S16x64x64x64x25x1_0_1_2_3_4_5 : S1x1x1x1x1x1.BroadcastsInDim S16x64x64x64x25x1 (![0, 1, 2, 3, 4, 5] : Fin 6 → Fin S16x64x64x64x25x1.rank)
  reducesTo_S16x64x64x64x25x1_S16x64x64x64x25_d5 : S16x64x64x64x25x1.ReducesTo [5] S16x64x64x64x25
  h_S_ : 0 < S_.numel
  transposes_S16x64x64x64x25_S64x25x16x64x64_1_4_0_2_3 : S16x64x64x64x25.Transposes [1, 4, 0, 2, 3] S64x25x16x64x64
  shapeCasts_S64x25x16x64x64_S1600x65536 : S64x25x16x64x64.ShapeCasts S1600x65536
  inb_S256x1600_S256x1600_0_0 : ∀ a, (![0, 0] : Fin 2 → Nat) a + S256x1600.size a ≤ S256x1600.size a
  h_S256x1600 : 0 < S256x1600.numel
  bitsLt_bf16_f32 : FTy.bits .bf16 < FTy.bits .f32
  inb_S1600x1024_S1600x1024_0_0 : ∀ a, (![0, 0] : Fin 2 → Nat) a + S1600x1024.size a ≤ S1600x1024.size a
  h_S1600x1024 : 0 < S1600x1024.numel
  shapeCasts_S1600x1024_S1600x1024 : S1600x1024.ShapeCasts S1600x1024
  inb_S256x1024_S256x1024_0_0 : ∀ a, (![0, 0] : Fin 2 → Nat) a + S256x1024.size a ≤ S256x1024.size a
  h_S256x1024 : 0 < S256x1024.numel
  shapeCasts_S256x65536_S256x16x64x64 : S256x65536.ShapeCasts S256x16x64x64
  transposes_S256x16x64x64_S16x256x64x64_1_0_2_3 : S256x16x64x64.Transposes [1, 0, 2, 3] S16x256x64x64
  gather_S4194304_S16x64x64x64x25x1_S16x64x64x64x25_n_0_n_n_0_5_1_wf : GatherDims.WF S4194304 S16x64x64x64x25x1 S16x64x64x64x25 [] [0] [] [0] [] 5 ![1]
  dot_S256x1600_S1600x1024_S256x1024_1_0_0_1_n_n_wf : DotDims.WF S256x1600 S1600x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1600.size a ≤ S256x1600.size a
  hwx0_0 : ∀ i : grid0.Coords, EltTy.bits .f32 = 32 ∨ (Rect.block (s := S256x1600) S256x1600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x1024.size a ≤ S1600x65536.size a
  hwx0_1 : ∀ i : grid0.Coords, EltTy.bits .f32 = 32 ∨ (Rect.block (s := S1600x65536) S1600x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x65536.size a
  hwx0_2 : ∀ i : grid0.Coords, EltTy.bits .f32 = 32 ∨ (Rect.block (s := S256x65536) S256x1024.size (cc0_transform_2 i) (hinb0_2 i)).WholeWords (EltTy.packing .f32)

variable [Facts₀]

def gather_S4194304_S16x64x64x64x25x1_S16x64x64x64x25_n_0_n_n_0_5_1 : GatherDims S4194304 S16x64x64x64x25x1 S16x64x64x64x25 where
  offsetDims := []
  collapsedSliceDims := [0]
  operandBatchingDims := []
  startIndicesBatchingDims := []
  startIndexMap := [0]
  indexVectorDim := 5
  sliceSizes := ![1]
  wf := gather_S4194304_S16x64x64x64x25x1_S16x64x64x64x25_n_0_n_n_0_5_1_wf
def dot_S256x1600_S1600x1024_S256x1024_1_0_0_1_n_n : DotDims S256x1600 S1600x1024 S256x1024 where
  lhsContracting := [1]
  rhsContracting := [0]
  lhsNonContracting := [0]
  rhsNonContracting := [1]
  lhsBatch := []
  rhsBatch := []
  wf := dot_S256x1600_S1600x1024_S256x1024_1_0_0_1_n_n_wf

abbrev win0_0 : Pipeline.Window sig grid0 :=
  Pipeline.Window.ofSpec (Memref.whole main_arg3) S256x1600.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1600x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x64 : Shape := ⟨4, ![16, 64, 64, 64]⟩
abbrev S16x64x64x64x25 : Shape := ⟨5, ![16, 64, 64, 64, 25]⟩
abbrev S256x1600 : Shape := ⟨2, ![256, 1600]⟩
abbrev S4194304 : Shape := ⟨1, ![4194304]⟩
abbrev S_ : Shape := ⟨0, ![]⟩
abbrev S16x64x64x64x25x1 : Shape := ⟨6, ![16, 64, 64, 64, 25, 1]⟩
abbrev S1 : Shape := ⟨1, ![1]⟩
abbrev S1x1x1x1x1x1 : Shape := ⟨6, ![1, 1, 1, 1, 1, 1]⟩
abbrev S64x25x16x64x64 : Shape := ⟨5, ![64, 25, 16, 64, 64]⟩
abbrev S1600x65536 : Shape := ⟨2, ![1600, 65536]⟩
abbrev S256x65536 : Shape := ⟨2, ![256, 65536]⟩
abbrev S256x16x64x64 : Shape := ⟨4, ![256, 16, 64, 64]⟩
abbrev S16x256x64x64 : Shape := ⟨4, ![16, 256, 64, 64]⟩

abbrev nBuf : Space → Nat
  | .hbm => 35
  | .vmem => 0
  | .smem => 0
  | _ => 0

abbrev bufTy : (tb : Table) → Fin (tcTables nBuf tb) → BufTy
  | .hbm, ⟨0, _⟩ => ⟨S16x64x64x64, .f32⟩
  | .hbm, ⟨1, _⟩ => ⟨S16x64x64x64x25, .i32⟩
  | .hbm, ⟨2, _⟩ => ⟨S16x64x64x64x25, .i1⟩
  | .hbm, ⟨3, _⟩ => ⟨S256x1600, .f32⟩
  | .hbm, ⟨4, _⟩ => ⟨S4194304, .f32⟩
  | .hbm, ⟨5, _⟩ => ⟨S_, .i32⟩
  | .hbm, ⟨6, _⟩ => ⟨S16x64x64x64x25, .i32⟩
  | .hbm, ⟨7, _⟩ => ⟨S16x64x64x64x25, .i1⟩
  | .hbm, ⟨8, _⟩ => ⟨S_, .i32⟩
  | .hbm, ⟨9, _⟩ => ⟨S16x64x64x64x25, .i32⟩
  | .hbm, ⟨10, _⟩ => ⟨S16x64x64x64x25, .i32⟩
  | .hbm, ⟨11, _⟩ => ⟨S16x64x64x64x25, .i32⟩
  | .hbm, ⟨12, _⟩ => ⟨S16x64x64x64x25x1, .i32⟩
  | .hbm, ⟨13, _⟩ => ⟨S1, .i32⟩
  | .hbm, ⟨14, _⟩ => ⟨S_, .i32⟩
  | .hbm, ⟨15, _⟩ => ⟨S16x64x64x64x25x1, .i32⟩
  | .hbm, ⟨16, _⟩ => ⟨S16x64x64x64x25x1, .i1⟩
  | .hbm, ⟨17, _⟩ => ⟨S1x1x1x1x1x1, .i32⟩
  | .hbm, ⟨18, _⟩ => ⟨S16x64x64x64x25x1, .i32⟩
  | .hbm, ⟨19, _⟩ => ⟨S16x64x64x64x25x1, .i1⟩
  | .hbm, ⟨20, _⟩ => ⟨S16x64x64x64x25x1, .i1⟩
  | .hbm, ⟨21, _⟩ => ⟨S_, .i1⟩
  | .hbm, ⟨22, _⟩ => ⟨S16x64x64x64x25, .i1⟩
  | .hbm, ⟨23, _⟩ => ⟨S16x64x64x64x25, .f32⟩
  | .hbm, ⟨24, _⟩ => ⟨S_, .f32⟩
  | .hbm, ⟨25, _⟩ => ⟨S16x64x64x64x25, .f32⟩
  | .hbm, ⟨26, _⟩ => ⟨S16x64x64x64x25, .f32⟩
  | .hbm, ⟨27, _⟩ => ⟨S_, .f32⟩
  | .hbm, ⟨28, _⟩ => ⟨S16x64x64x64x25, .f32⟩
  | .hbm, ⟨29, _⟩ => ⟨S16x64x64x64x25, .f32⟩
  | .hbm, ⟨30, _⟩ => ⟨S64x25x16x64x64, .f32⟩
  | .hbm, ⟨31, _⟩ => ⟨S1600x65536, .f32⟩
  | .hbm, ⟨32, _⟩ => ⟨S256x65536, .f32⟩
  | .hbm, ⟨33, _⟩ => ⟨S256x16x64x64, .f32⟩
  | .hbm, ⟨34, _⟩ => ⟨S16x256x64x64, .f32⟩
  | _, _ => ⟨S16x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_cst : Ref sig .tc := ⟨.hbm, 27, rfl⟩
abbrev main_call1_v0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  shapeCasts_S16x64x64x64_S4194304 : S16x64x64x64.ShapeCasts S4194304
  bcast_S_S16x64x64x64x25 : S_.BroadcastsInDim S16x64x64x64x25 (![] : Fin 0 → Fin S16x64x64x64x25.rank)
  bcast_S16x64x64x64x25_S16x64x64x64x25x1_0_1_2_3_4 : S16x64x64x64x25.BroadcastsInDim S16x64x64x64x25x1 (![0, 1, 2, 3, 4] : Fin 5 → Fin S16x64x64x64x25x1.rank)
  bcast_S_S16x64x64x64x25x1 : S_.BroadcastsInDim S16x64x64x64x25x1 (![] : Fin 0 → Fin S16x64x64x64x25x1.rank)
  bcast_S1_S1x1x1x1x1x1_5 : S1.BroadcastsInDim S1x1x1x1x1x1 (![5] : Fin 1 → Fin S1x1x1x1x1x1.rank)
  bcast_S1x1x1x1x1x1_S16x64x64x64x25x1_0_1_2_3_4_5 : S1x1x1x1x1x1.BroadcastsInDim S16x64x64x64x25x1 (![0, 1, 2, 3, 4, 5] : Fin 6 → Fin S16x64x64x64x25x1.rank)
  reducesTo_S16x64x64x64x25x1_S16x64x64x64x25_d5 : S16x64x64x64x25x1.ReducesTo [5] S16x64x64x64x25
  h_S_ : 0 < S_.numel
  transposes_S16x64x64x64x25_S64x25x16x64x64_1_4_0_2_3 : S16x64x64x64x25.Transposes [1, 4, 0, 2, 3] S64x25x16x64x64
  shapeCasts_S64x25x16x64x64_S1600x65536 : S64x25x16x64x64.ShapeCasts S1600x65536
  shapeCasts_S256x65536_S256x16x64x64 : S256x65536.ShapeCasts S256x16x64x64
  transposes_S256x16x64x64_S16x256x64x64_1_0_2_3 : S256x16x64x64.Transposes [1, 0, 2, 3] S16x256x64x64
  gather_S4194304_S16x64x64x64x25x1_S16x64x64x64x25_n_0_n_n_0_5_1_wf : GatherDims.WF S4194304 S16x64x64x64x25x1 S16x64x64x64x25 [] [0] [] [0] [] 5 ![1]
  dot_S256x1600_S1600x65536_S256x65536_1_0_0_1_n_n_wf : DotDims.WF S256x1600 S1600x65536 S256x65536 [1] [0] [0] [1] [] []

variable [Facts₀]

def gather_S4194304_S16x64x64x64x25x1_S16x64x64x64x25_n_0_n_n_0_5_1 : GatherDims S4194304 S16x64x64x64x25x1 S16x64x64x64x25 where
  offsetDims := []
  collapsedSliceDims := [0]
  operandBatchingDims := []
  startIndicesBatchingDims := []
  startIndexMap := [0]
  indexVectorDim := 5
  sliceSizes := ![1]
  wf := gather_S4194304_S16x64x64x64x25x1_S16x64x64x64x25_n_0_n_n_0_5_1_wf
def dot_S256x1600_S1600x65536_S256x65536_1_0_0_1_n_n : DotDims S256x1600 S1600x65536 S256x65536 where
  lhsContracting := [1]
  rhsContracting := [0]
  lhsNonContracting := [0]
  rhsNonContracting := [1]
  lhsBatch := []
  rhsBatch := []
  wf := dot_S256x1600_S1600x65536_S256x65536_1_0_0_1_n_n_wf

class Facts : Prop extends Facts₀ where

variable [Facts]
-- ==== Proof.HostChain.lean ====
/-
  The host stretches the two programs share, each as one function of its operands.

  `cols x idx z` is the matrix product's right operand. The array x is flattened to a vector of 4194304 entries. An index
  i < 0 is wrapped to i + 4194304. An entry whose wrapped index lies outside [0, 4194303] holds the fill word
  0x7FC00000; every other entry holds the flattened x at that index. Entries where the mask z is set are replaced by
  zero. The resulting array [16, 64, 64, 64, 25], axes (b, c, h, w, l), is re-laid with axes (c, l, b, h, w) and
  flattened to [1600, 65536]: row c·25 + l, column (b·64 + h)·64 + w.

  `relay o` is the result's layout: a [256, 65536] matrix split to [256, 16, 64, 64] and re-laid with the first two
  axes exchanged, [16, 256, 64, 64].

  `result x idx z w` is `relay` of the product of w [256, 1600] with `cols x idx z`.
-/
import proofs.«160849_j86904368267933_1_alg».proof.KernelIdeal

noncomputable section

namespace Cert.HostChain

open Idealize.ShloMosaic Cert.KernelIdeal Cert.KernelIdeal.Facts₀

variable {F : FTy → Type} [FloatOps F] [Cert.KernelIdeal.Facts]

/-- The gathered, masked and re-laid operand [1600, 65536]. -/
def cols (x : FVec F S16x64x64x64 .f32) (idx : IVec S16x64x64x64x25 32) (z : IVec S16x64x64x64x25 1) :
    FVec F S1600x65536 .f32 :=
  let flat : FVec F S4194304 .f32 := shapeCast S4194304 x shapeCasts_S16x64x64x64_S4194304
  let zeros : IVec S16x64x64x64x25 32 := broadcastInDim S16x64x64x64x25 ![] bcast_S_S16x64x64x64x25 (constantI S_ 32 0#32)
  let neg : IVec S16x64x64x64x25 1 := cmpi .slt idx zeros
  let len : IVec S16x64x64x64x25 32 := broadcastInDim S16x64x64x64x25 ![] bcast_S_S16x64x64x64x25 (constantI S_ 32 4194304#32)
  let shifted : IVec S16x64x64x64x25 32 := addi idx len
  let wrapped : IVec S16x64x64x64x25 32 := select neg shifted idx
  let col : IVec S16x64x64x64x25x1 32 :=
    broadcastInDim S16x64x64x64x25x1 ![0, 1, 2, 3, 4] bcast_S16x64x64x64x25_S16x64x64x64x25x1_0_1_2_3_4 wrapped
  let lo : IVec S16x64x64x64x25x1 32 := broadcastInDim S16x64x64x64x25x1 ![] bcast_S_S16x64x64x64x25x1 (constantI S_ 32 0#32)
  let geLo : IVec S16x64x64x64x25x1 1 := cmpi .sge col lo
  let hi1 : IVec S1x1x1x1x1x1 32 := broadcastInDim S1x1x1x1x1x1 ![5] bcast_S1_S1x1x1x1x1x1_5 (constantI S1 32 4194303#32)
  let hi : IVec S16x64x64x64x25x1 32 :=
    broadcastInDim S16x64x64x64x25x1 ![0, 1, 2, 3, 4, 5] bcast_S1x1x1x1x1x1_S16x64x64x64x25x1_0_1_2_3_4_5 hi1
  let leHi : IVec S16x64x64x64x25x1 1 := cmpi .sle col hi
  let inside6 : IVec S16x64x64x64x25x1 1 := andi geLo leHi
  let inside : IVec S16x64x64x64x25 1 :=
    Host.reduce IntOp.andi inside6 (constantI S_ 1 1#1) reducesTo_S16x64x64x64x25x1_S16x64x64x64x25_d5 h_S_
  let taken : FVec F S16x64x64x64x25 .f32 :=
    Host.gather gather_S4194304_S16x64x64x64x25x1_S16x64x64x64x25_n_0_n_n_0_5_1 flat col
  let fill : FVec F S16x64x64x64x25 .f32 :=
    broadcastInDim S16x64x64x64x25 ![] bcast_S_S16x64x64x64x25 (constant S_ .f32 0x7FC00000#32)
  let g : FVec F S16x64x64x64x25 .f32 := select inside taken fill
  let zero : FVec F S16x64x64x64x25 .f32 :=
    broadcastInDim S16x64x64x64x25 ![] bcast_S_S16x64x64x64x25 (constant S_ .f32 0x00000000#32)
  let masked : FVec F S16x64x64x64x25 .f32 := select z zero g
  let relaid : FVec F S64x25x16x64x64 .f32 :=
    transpose S64x25x16x64x64 [1, 4, 0, 2, 3] masked transposes_S16x64x64x64x25_S64x25x16x64x64_1_4_0_2_3
  shapeCast S1600x65536 relaid shapeCasts_S64x25x16x64x64_S1600x65536

/-- The result's layout: [256, 65536] to [16, 256, 64, 64]. -/
def relay (o : FVec F S256x65536 .f32) : FVec F S16x256x64x64 .f32 :=
  transpose S16x256x64x64 [1, 0, 2, 3] (shapeCast S256x16x64x64 o shapeCasts_S256x65536_S256x16x64x64)
    transposes_S256x16x64x64_S16x256x64x64_1_0_2_3

/-- The whole result: the product of the weights with the gathered operand, re-laid. -/
def result (x : FVec F S16x64x64x64 .f32) (idx : IVec S16x64x64x64x25 32) (z : IVec S16x64x64x64x25 1)
    (w : FVec F S256x1600 .f32) : FVec F S16x256x64x64 .f32 :=
  relay (Host.dotGeneral (DotDims.plain 256 1600 65536) none w (cols x idx z))

end Cert.HostChain

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.TileProduct.lean ====
/-
  One column tile of a matrix product against the whole product, at one entry, on the extended reals.

  The kernel multiplies the weights' block [256, 1600] with a tile [1600, 1024] of the right operand, both first
  narrowed to bf16 — the identity on the extended reals, as is a shape cast to the same shape — into a zero accumulator.
  When the block's row p is row p of the weights W and the tile's column q' is column q of the whole right operand C
  [1600, 65536], entry (p, q') of the tile's product is the sum over k of W[p,k] · C[k,q], which is entry (p, q) of the
  host's product of the whole operands. Both are sums over the same index set of the same terms: no law beyond
  congruence is used, so nothing needs the entries to be finite.
-/
import proofs.«160849_j86904368267933_1_alg».proof.Proof.LibPlainDot
import Idealize.ShloMosaic.Lib.Pipeline.Value

noncomputable section

open scoped BigOperators

namespace Cert.TileProduct

open Idealize.ShloMosaic Idealize.ShloMosaic.ValueIdx

/-- Entry (p, q') of the body's product on a tile is entry (p, q) of the whole product, when the left block's row p is
    the weights' row p and the tile's column q' is the whole operand's column q. -/
theorem tile_entry (W : FVec Ideal ⟨2, ![256, 1600]⟩ .f32) (C : FVec Ideal ⟨2, ![1600, 65536]⟩ .f32)
    (Wb : FVec Ideal ⟨2, ![256, 1600]⟩ .f32) (Cb : FVec Ideal ⟨2, ![1600, 1024]⟩ .f32)
    (hb : FTy.bits .bf16 < FTy.bits .f32) (hs : (⟨2, ![1600, 1024]⟩ : Shape).ShapeCasts ⟨2, ![1600, 1024]⟩)
    (p : Fin 256) (q' : Fin 1024) (q : Fin 65536)
    (hW : ∀ k : Fin 1600, Wb (ix2 p k) = W (ix2 p k))
    (hC : ∀ k : Fin 1600, Cb (ix2 k q') = C (ix2 k q)) :
    matmul (DotDims.plain 256 1600 1024) none (truncf .bf16 Wb hb)
        (truncf .bf16 (shapeCast ⟨2, ![1600, 1024]⟩ Cb hs) hb) (constant ⟨2, ![256, 1024]⟩ .f32 0x00000000#32) (ix2 p q')
      = Host.dotGeneral (DotDims.plain 256 1600 65536) none W C (ix2 p q) := by
  rw [shapeCast_self]
  show FloatOps.matmul (DotDims.plain 256 1600 1024) none (truncf .bf16 Wb hb) (truncf .bf16 Cb hb)
      (constant ⟨2, ![256, 1024]⟩ .f32 0x00000000#32) (ix2 p q')
    = FloatOps.dotGeneral (DotDims.plain 256 1600 65536) none .single W C (ix2 p q)
  rw [Cert.PlainDot.matmul_zero_apply, Cert.PlainDot.dotGeneral_apply]
  refine Finset.sum_congr rfl fun k _ => ?_
  show Wb (ix2 p k) * Cb (ix2 k q') = W (ix2 p k) * C (ix2 k q)
  rw [hW k, hC k]

/-- The same with the two entries given by their coordinates: entry j of the tile's product is entry i of the whole
    product when i has j's row and column b·1024 + j's column, the left block is the weights, and the tile's entry y is
    the whole operand's entry in y's row and column b·1024 + y's column. -/
theorem tile_at (W : FVec Ideal ⟨2, ![256, 1600]⟩ .f32) (C : FVec Ideal ⟨2, ![1600, 65536]⟩ .f32)
    (Wb : FVec Ideal ⟨2, ![256, 1600]⟩ .f32) (Cb : FVec Ideal ⟨2, ![1600, 1024]⟩ .f32)
    (hb : FTy.bits .bf16 < FTy.bits .f32) (hs : (⟨2, ![1600, 1024]⟩ : Shape).ShapeCasts ⟨2, ![1600, 1024]⟩)
    (j : (⟨2, ![256, 1024]⟩ : Shape).Idx) (i : (⟨2, ![256, 65536]⟩ : Shape).Idx) (b : Nat)
    (hi0 : (i 0).val = (j 0).val) (hi1 : (i 1).val = b * 1024 + (j 1).val)
    (hW : ∀ y, Wb y = W y)
    (hC : ∀ (y : (⟨2, ![1600, 1024]⟩ : Shape).Idx) (y' : (⟨2, ![1600, 65536]⟩ : Shape).Idx),
      (y' 0).val = (y 0).val → (y' 1).val = b * 1024 + (y 1).val → Cb y = C y') :
    matmul (DotDims.plain 256 1600 1024) none (truncf .bf16 Wb hb)
        (truncf .bf16 (shapeCast ⟨2, ![1600, 1024]⟩ Cb hs) hb) (constant ⟨2, ![256, 1024]⟩ .f32 0x00000000#32) j
      = Host.dotGeneral (DotDims.plain 256 1600 65536) none W C i := by
  obtain ⟨p, q', rfl⟩ : ∃ (p : Fin 256) (q' : Fin 1024), j = ix2 p q' := ⟨j 0, j 1, eq_ix2 j⟩
  obtain ⟨p', q, rfl⟩ : ∃ (p' : Fin 256) (q : Fin 65536), i = ix2 p' q := ⟨i 0, i 1, eq_ix2 i⟩
  have hp : p' = p := Fin.ext hi0
  subst hp
  exact tile_entry W C Wb Cb hb hs p' q' q (fun k => hW _) (fun k => hC _ _ rfl hi1)

end Cert.TileProduct

end
-- ==== Proof.LibTypedRef.lean ====
/-
  Typed references of a module-local function: contents carried to the buffer's own type and back.

  A typed reference `x : TRef sig T` names a buffer whose type is `T` by an equation. An operation of a function's body
  reads an operand through `x.ofBuf` (from the buffer's type to `T`) and writes its result through `x.toBuf` (from `T`
  to the buffer's type); both are transports along that equation, so one after the other is the identity, whatever the
  equation's proof. With these two facts the run of an inlined function's operations reads as the plain composition of
  their functions.
-/
import Idealize.ShloMosaic.Lib.StableHlo

namespace Cert.TypedRef

open Idealize.ShloMosaic Idealize.ShloMosaic.StableHlo

variable {sig : RefSig} {Val : EltTy → Type} {T : BufTy}

/-- Written to the buffer's type and read back at the value's type: the value. -/
theorem ofBuf_toBuf (x : TRef sig T) (v : T.Contents Val) : x.ofBuf (x.toBuf v) = v := by
  obtain ⟨r, rfl, _, _⟩ := x
  rfl

/-- Read at the value's type and written back to the buffer's type: the contents. -/
theorem toBuf_ofBuf (x : TRef sig T) (v : x.ref.ty.Contents Val) : x.toBuf (x.ofBuf v) = v := by
  obtain ⟨r, rfl, _, _⟩ := x
  rfl

end Cert.TypedRef
-- ==== Proof.KernelValue.lean ====
/-
  What the idealized kernel program's result holds after its run.

  The region multiplies the weights [256, 1600] with the operand [1600, 65536] the host stretch before it built
  (`HostChain.cols` of the first three arguments), one column tile of 1024 per grid point: point t reads the whole
  weights and columns t·1024 … t·1024 + 1023 of the operand and writes the same columns of the output [256, 65536].
  Entry (p, q') of what point t writes is the sum over k of W[p,k] · C[k, t·1024 + q'] (`TileProduct.tile_at`): block t
  of the host's product of the whole operands. The 64 blocks tile the output, so the output array ends holding that
  product. The two host operations after the region re-lay it (`HostChain.relay`), so the result is
  `HostChain.result` of the four arguments.
-/
import proofs.«160849_j86904368267933_1_alg».proof.Proof.Gen.KernelIdeal.Frame
import proofs.«160849_j86904368267933_1_alg».proof.Proof.HostChain
import proofs.«160849_j86904368267933_1_alg».proof.Proof.TileProduct
import proofs.«160849_j86904368267933_1_alg».proof.Proof.LibTypedRef
import Idealize.ShloMosaic.Lib.Pipeline.Value
import Idealize.ShloMosaic.Lib.StableHlo.Run
import Idealize.ShloMosaic.Lib.ValueIdx

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays the region finds, and the blocks a point reads, at their literal types -/

/-- The weights as the region finds them. -/
abbrev warr (c : Dev nD) : FVec Ideal S256x1600 .f32 := V m c main_arg3
/-- The operand [1600, 65536] as the region finds it. -/
abbrev carr (c : Dev nD) : FVec Ideal S1600x65536 .f32 := V m c main_v4
/-- The weights' block at point t. -/
abbrev wblock (c : Dev nD) (t : Fin cfg0.N) : Vec Ideal S256x1600 .f32 := iblk m c 0 t
/-- The operand's tile at point t. -/
abbrev cblock (c : Dev nD) (t : Fin cfg0.N) : Vec Ideal S1600x1024 .f32 := iblk m c 1 t
/-- The host's product of the whole operands as the region finds them. -/
abbrev whole (c : Dev nD) : FVec Ideal S256x65536 .f32 :=
  Host.dotGeneral (DotDims.plain 256 1600 65536) none (warr m c) (carr m c)

theorem hz : (![0, 0] : Fin 2 → Nat) = fun _ => 0 := funext fun a => by fin_cases a <;> rfl

/-- The printed index maps over the grid: the weights' block is always block (0, 0); the operand's tile and the
    output's block are block (0, t'), the same t' below 64. -/
theorem idx_facts : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) < 64 :=
  (by decide +kernel : ∀ t : Fin grid0.N, _)

/-- Every column block of the output is some point's. -/
theorem idx_onto : ∀ q1 : Fin 64, ∃ t : Fin cfg0.N, win0_2.index t = ![0, q1.val] :=
  (by decide +kernel : ∀ q1 : Fin 64, ∃ t : Fin grid0.N, win0_2.index t = ![0, q1.val])

/-- The weights' block is the weights. -/
theorem wblock_apply (c : Dev nD) (t : Fin cfg0.N) (y : S256x1600.Idx) : wblock m c t y = warr m c y := by
  show V m c main_arg3 (((cfg0.win 0).blk t).view.emb y) = V m c main_arg3 y
  obtain ⟨e0, e1, e2, e3, e4, e5⟩ := idx_facts t
  have h : ((cfg0.win 0).blk t).view.emb y = y := by
    funext a; apply Fin.ext
    match a with
    | ⟨0, _⟩ => show win0_0.index t (0 : Fin 2) * 256 + 1 * (y 0).val = (y 0).val; omega
    | ⟨1, _⟩ => show win0_0.index t (1 : Fin 2) * 1600 + 1 * (y 1).val = (y 1).val; omega
  rw [h]

/-- The operand's tile at point t holds, at (k, q'), the operand at (k, t'·1024 + q'), t' the output's column block. -/
theorem cblock_apply (c : Dev nD) (t : Fin cfg0.N) (y : S1600x1024.Idx) (y' : S1600x65536.Idx)
    (h0 : (y' 0).val = (y 0).val) (h1 : (y' 1).val = win0_2.index t (1 : Fin 2) * 1024 + (y 1).val) :
    cblock m c t y = carr m c y' := by
  show V m c main_v4 (((cfg0.win 1).blk t).view.emb y) = V m c main_v4 y'
  obtain ⟨e0, e1, e2, e3, e4, e5⟩ := idx_facts t
  have h : ((cfg0.win 1).blk t).view.emb y = y' := by
    funext a; apply Fin.ext
    match a with
    | ⟨0, _⟩ => show win0_1.index t (0 : Fin 2) * 1600 + 1 * (y 0).val = (y' 0).val; omega
    | ⟨1, _⟩ => show win0_1.index t (1 : Fin 2) * 1024 + 1 * (y 1).val = (y' 1).val; omega
  rw [h]

/-! ## What the body computes, at one entry -/

/-- The body's product record is the plain 256 × 1600 by 1600 × 1024 one. -/
theorem dot_plain : dot_S256x1600_S1600x1024_S256x1024_1_0_0_1_n_n = DotDims.plain 256 1600 1024 := rfl

/-- Entry j of the body's payload on a weights' block and a tile is entry i of the whole product, when i has j's row
    and column b·1024 + j's column, the block is the weights, and the tile is the operand's columns from b·1024. -/
theorem pay_at (W : FVec Ideal S256x1600 .f32) (C : FVec Ideal S1600x65536 .f32)
    (x0 : Vec Ideal S256x1600 .f32) (x1 : Vec Ideal S1600x1024 .f32)
    (j : S256x1024.Idx) (i : S256x65536.Idx) (b : Nat)
    (hi0 : (i 0).val = (j 0).val) (hi1 : (i 1).val = b * 1024 + (j 1).val)
    (hW : ∀ y, x0 y = W y)
    (hC : ∀ (y : S1600x1024.Idx) (y' : S1600x65536.Idx),
      (y' 0).val = (y 0).val → (y' 1).val = b * 1024 + (y 1).val → x1 y = C y') :
    k0_pay1 x0 x1 j = Host.dotGeneral (DotDims.plain 256 1600 65536) none W C i := by
  unfold k0_pay1
  rw [dot_plain]
  exact Cert.TileProduct.tile_at W C x0 x1 _ _ j i b hi0 hi1 hW hC

/-! ## What a point writes back, the cover, the array after the run -/

/-- What point t writes back is block t of the whole product. -/
theorem flushed_eq (c : Dev nD) (t : Fin cfg0.N) :
    (dats m 0 c).flushed 2 t = ((cfg0.win 2).blk t).view.read (Elt Ideal) (whole m c) := by
  show (cfg0.win 2).cut (grid0.coords t) ((dats m 0 c).after 2 t) = _
  rw [after0_2]
  unfold out0_2
  rw [View.canon_unit_zero hz]
  simp only [View.ld_unit_zero (S := S256x1600) hz, View.ld_unit_zero (S := S1600x1024) hz]
  obtain ⟨e0, e1, e2, e3, e4, e5⟩ := idx_facts t
  funext j
  show k0_pay1 (wblock m c t) (cblock m c t) j
    = Host.dotGeneral (DotDims.plain 256 1600 65536) none (warr m c) (carr m c) (((cfg0.win 2).blk t).view.emb j)
  refine pay_at (warr m c) (carr m c) (wblock m c t) (cblock m c t) j (((cfg0.win 2).blk t).view.emb j)
    (win0_2.index t (1 : Fin 2)) ?_ ?_ (wblock_apply m c t) (cblock_apply m c t)
  · show win0_2.index t (0 : Fin 2) * 256 + 1 * (j 0).val = (j 0).val; omega
  · show win0_2.index t (1 : Fin 2) * 1024 + 1 * (j 1).val = win0_2.index t (1 : Fin 2) * 1024 + (j 1).val; omega

/-- An index of the output is in point t's block iff each coordinate is in the block's range on its axis. -/
theorem mem_blk (t : Fin cfg0.N) (i : S256x65536.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v5).slice (win0_2.rect t)).set ↔ _
  rw [View.set_slice_whole, Rect.mem_set_unit]
  exact Iff.rfl

/-- Every index of the output is in some point's block: column q lies in column block q / 1024. -/
theorem cover (i : S256x65536.Idx) :
    ∃ t : Fin cfg0.N, (cfg0.win 2).flush t = true ∧ i ∈ ((cfg0.win 2).blk t).view.set := by
  have hi0 : (i 0).val < 256 := (i 0).isLt
  have hi1 : (i 1).val < 65536 := (i 1).isLt
  obtain ⟨t, ht⟩ := idx_onto ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The output array after the run is the whole product. -/
theorem final (c : Dev nD) : (dats m 0 c).arrAt 2 cfg0.N = whole m c :=
  (dats m 0 c).arrAt_eq_of_cover 2 (whole m c) (fun t _ => flushed_eq m c t) cover

/-! ## The host stretches around the region -/

/-- The operand the region finds is the shared gathered, masked and re-laid one of the first three arguments. -/
theorem carr_eq (c : Dev nD) :
    carr m c = Cert.HostChain.cols (F := Ideal) (m ((c.tc : Thread nD τ).loc main_arg0)) (m ((c.tc : Thread nD τ).loc main_arg1))
      (m ((c.tc : Thread nD τ).loc main_arg2)) := by
  show V m c main_v4 = _
  dsimp only [Gen.V, Gen.V0]
  simp only [hostOps0, hostOps0_1, hostOps0_2, hostOps0_3, hostOps0_4, List.flatten_cons, List.flatten_nil, List.append_nil,
    List.cons_append, List.nil_append]
  after_results_simp
  simp only [Cert.TypedRef.ofBuf_toBuf]
  rfl

/-- The weights the region finds are the fourth argument. -/
theorem warr_eq (c : Dev nD) : warr m c = m ((c.tc : Thread nD τ).loc main_arg3) := V_main_arg3 m c

/-- The two operations after the region re-lay the output array. -/
theorem tail_eq (c : Dev nD) :
    Pipeline.afterTail₀ cfgs (dats m) 0 (V0 m) [hostOps1] c main_v7 = Cert.HostChain.relay (F := Ideal) ((dats m 0 c).arrAt 2 cfg0.N) := by
  unfold Pipeline.afterTail₀
  show StableHlo.after hostOps1 _ (Proc.devRef .tc main_v7) = _
  after_results
  rw [Pipeline.withArrays_arr spec0 launch0.win.arr_inj c _ _ 2]
  rfl

/-- The program's result after the run. -/
theorem result_eq (c : Dev nD) :
    Pipeline.afterTail₀ cfgs (dats m) 0 (V0 m) [hostOps1] c main_v7
      = Cert.HostChain.result (F := Ideal) (m ((c.tc : Thread nD τ).loc main_arg0)) (m ((c.tc : Thread nD τ).loc main_arg1))
          (m ((c.tc : Thread nD τ).loc main_arg2)) (m ((c.tc : Thread nD τ).loc main_arg3)) := by
  rw [tail_eq, final]
  unfold Cert.HostChain.result
  rw [← carr_eq m c, ← warr_eq m c]

/-! ## The run, read -/

/-- Every weakly fair execution of the idealized kernel program terminates with its result at `HostChain.result` of the
    four arguments' launch contents, the arguments unchanged. -/
theorem run : θ_run defs (onTc (τ := τ) (main (F := Ideal))) ⟨m, fun _ => 0, ρ⟩ fun r => ∀ c : Dev nD,
      r.2.mem ((c.tc : Thread nD τ).loc main_v7)
        = Cert.HostChain.result (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c)))⟩)
    (run_main m ρ)

end Cert.KernelIdeal.Tiles

end
-- ==== Proof.ReferenceRun.lean ====
/-
  The reference program's run, read back.

  The reference is a straight line once its three helper functions are inlined at their calls: 31 host operations. The
  flattening of x; the 22 operations of the take (wrap negative indices, test the range, gather, fill outside the
  range); the zero; the two operations of the mask's select; the re-laying and flattening to [1600, 65536]; the matrix
  product; the result's split and re-laying. Every weakly fair execution terminates with each buffer at the fold of
  these operations over the launch contents, and the fold at the result buffer is `HostChain.result` of the four
  arguments: the same composition, operation by operation.
-/
import proofs.«160849_j86904368267933_1_alg».proof.Proof.Gen.ReferenceIdeal
import proofs.«160849_j86904368267933_1_alg».proof.Proof.HostChain
import proofs.«160849_j86904368267933_1_alg».proof.Proof.LibTypedRef
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
open Idealize.ShloMosaic.StableHlo

variable {F : FTy → Type} [FloatOps F]

/-- The reference's 31 operations in order, the helper functions' operations at their call sites over the calls' own
    buffers. -/
abbrev ops : List (HloOp τ sig (Elt F)) :=
  [ reshape main_arg0 main_v0 rfl shapeCasts_S16x64x64x64_S4194304,
    TRef.nullary main_call0.c (constantI S_ 32 0#32),
    TRef.unary main_call0.c main_call0.v0 (broadcastInDim S16x64x64x64x25 ![] bcast_S_S16x64x64x64x25),
    TRef.binary (.of main_arg1 : TRef sig ⟨S16x64x64x64x25, .i32⟩) main_call0.v0 main_call0.v1 (cmpi .slt),
    TRef.nullary main_call0.c_0 (constantI S_ 32 4194304#32),
    TRef.unary main_call0.c_0 main_call0.v2 (broadcastInDim S16x64x64x64x25 ![] bcast_S_S16x64x64x64x25),
    TRef.binary (.of main_arg1 : TRef sig ⟨S16x64x64x64x25, .i32⟩) main_call0.v2 main_call0.v3 addi,
    TRef.ternary main_call0.v1 main_call0.v3 (.of main_arg1 : TRef sig ⟨S16x64x64x64x25, .i32⟩) main_call0.call0.v0 select,
    TRef.unary main_call0.call0.v0 main_call0.v5 (broadcastInDim S16x64x64x64x25x1 ![0, 1, 2, 3, 4] bcast_S16x64x64x64x25_S16x64x64x64x25x1_0_1_2_3_4),
    TRef.nullary main_call0.c_1 (constantI S1 32 4194303#32),
    TRef.nullary main_call0.c_2 (constantI S_ 32 0#32),
    TRef.unary main_call0.c_2 main_call0.v6 (broadcastInDim S16x64x64x64x25x1 ![] bcast_S_S16x64x64x64x25x1),
    TRef.binary main_call0.v5 main_call0.v6 main_call0.v7 (cmpi .sge),
    TRef.unary main_call0.c_1 main_call0.v8 (broadcastInDim S1x1x1x1x1x1 ![5] bcast_S1_S1x1x1x1x1x1_5),
    TRef.unary main_call0.v8 main_call0.v9 (broadcastInDim S16x64x64x64x25x1 ![0, 1, 2, 3, 4, 5] bcast_S1x1x1x1x1x1_S16x64x64x64x25x1_0_1_2_3_4_5),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x64x64x64x25x1_S16x64x64x64x25_d5 h_S_),
    TRef.binary (.of main_v0 : TRef sig ⟨S4194304, .f32⟩) main_call0.v5 main_call0.v13 (fun x i => Host.gather gather_S4194304_S16x64x64x64x25x1_S16x64x64x64x25_n_0_n_n_0_5_1 x i),
    TRef.nullary main_call0.cst (constant S_ .f32 0x7FC00000#32),
    TRef.unary main_call0.cst main_call0.v14 (broadcastInDim S16x64x64x64x25 ![] bcast_S_S16x64x64x64x25),
    TRef.ternary main_call0.v12 main_call0.v13 main_call0.v14 main_call0.v15 select,
    nullary main_cst (constant S_ .f32 0x00000000#32),
    TRef.unary (.of main_cst : TRef sig ⟨S_, .f32⟩) main_call1.v0 (broadcastInDim S16x64x64x64x25 ![] bcast_S_S16x64x64x64x25),
    TRef.ternary (.of main_arg2 : TRef sig ⟨S16x64x64x64x25, .i1⟩) main_call1.v0 (.of main_v1 : TRef sig ⟨S16x64x64x64x25, .f32⟩) main_call1.v1 select,
    unary main_v2 main_v3 ((transpose S64x25x16x64x64 [1, 4, 0, 2, 3] · transposes_S16x64x64x64x25_S64x25x16x64x64_1_4_0_2_3) : (⟨S16x64x64x64x25, .f32⟩ : BufTy).Contents (Elt F) → (⟨S64x25x16x64x64, .f32⟩ : BufTy).Contents (Elt F)),
    reshape main_v3 main_v4 rfl shapeCasts_S64x25x16x64x64_S1600x65536,
    binary main_arg3 main_v4 main_v5 ((fun l r => Host.dotGeneral dot_S256x1600_S1600x65536_S256x65536_1_0_0_1_n_n none l r) : (⟨S256x1600, .f32⟩ : BufTy).Contents (Elt F) → (⟨S1600x65536, .f32⟩ : BufTy).Contents (Elt F) → (⟨S256x65536, .f32⟩ : BufTy).Contents (Elt F)),
    reshape main_v5 main_v6 rfl shapeCasts_S256x65536_S256x16x64x64,
    unary main_v6 main_v7 ((transpose S16x256x64x64 [1, 0, 2, 3] · transposes_S256x16x64x64_S16x256x64x64_1_0_2_3) : (⟨S256x16x64x64, .f32⟩ : BufTy).Contents (Elt F) → (⟨S16x256x64x64, .f32⟩ : BufTy).Contents (Elt F)) ]

set_option maxRecDepth 2048 in
/-- @main is that straight line: the helper functions unfolded at their calls, sequencing re-associated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., nullary_bufs_sub ..,
    unary_bufs_sub .., ternary_bufs_sub .., unary_bufs_sub .., reshape_bufs_sub .., binary_bufs_sub .., reshape_bufs_sub ..,
    unary_bufs_sub ..⟩

/-! ## The fold read at the result and at the arguments -/

variable [Cert.KernelIdeal.Facts]

-- the reduction and the gather are folds and searches over their operands' entries; the equation below never looks
-- inside them, so they stay folded while the two compositions are compared
attribute [local irreducible] Host.reduce Host.gather in
/-- The fold at the result buffer is `HostChain.result` of the fold's own arguments: each operation's result at its
    buffer is its function of its operands' buffers, and the composition is the shared one with the matrix product in
    its place. -/
theorem out_eq (V : Valuation τ sig (Elt F)) :
    after ops V (main_v7 : DevRef τ sig)
      = Cert.HostChain.result (F := F) (V (main_arg0 : DevRef τ sig)) (V (main_arg1 : DevRef τ sig)) (V (main_arg2 : DevRef τ sig))
          (V (main_arg3 : DevRef τ sig)) := by
  after_results_simp
  simp only [Cert.TypedRef.ofBuf_toBuf]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, from any memory with zero counters: every weakly fair execution of the reference terminates with
    its result at `HostChain.result` of the four arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = Cert.HostChain.result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.HandRun

end
-- ==== Proof.lean ====
/-
  The kernel program and the reference compute the same array on the extended reals.

  Both programs build the same right operand on the host — x flattened, gathered at the wrapped indices with the fill
  word outside the range, zeroed under the mask, re-laid to [1600, 65536] (`HostChain.cols`) — and both re-lay a
  [256, 65536] product to [16, 256, 64, 64] at the end (`HostChain.relay`). In between, the reference multiplies the
  weights [256, 1600] with the whole operand on the host, and the kernel multiplies them with one column tile of 1024 per
  grid point, the operands narrowed to bf16 first, into a zero accumulator. On the extended reals the narrowing is the
  identity and both products hold, at (p, q), the sum over k of W[p,k] · C[k,q]; the 64 tiles cover the output. So both
  results are `HostChain.result` of the four arguments (`KernelIdeal.Tiles.run`, `ReferenceIdeal.HandRun.run`), and the
  arguments end unchanged. The precondition is not used: the two sums have the same terms in the same order.
  The idealization rewrote nothing, so what it preserves is `True`.
-/
import proofs.«160849_j86904368267933_1_alg».proof.Defs
import proofs.«160849_j86904368267933_1_alg».proof.Proof.Gen.Kernel
import proofs.«160849_j86904368267933_1_alg».proof.Proof.Gen.Kernel.Skeleton
import proofs.«160849_j86904368267933_1_alg».proof.Proof.Gen.Kernel.Launch
import proofs.«160849_j86904368267933_1_alg».proof.Proof.Gen.Kernel.Points
import proofs.«160849_j86904368267933_1_alg».proof.Proof.Gen.Kernel.Frame
import proofs.«160849_j86904368267933_1_alg».proof.Proof.Gen.KernelIdeal
import proofs.«160849_j86904368267933_1_alg».proof.Proof.Gen.KernelIdeal.Skeleton
import proofs.«160849_j86904368267933_1_alg».proof.Proof.Gen.KernelIdeal.Launch
import proofs.«160849_j86904368267933_1_alg».proof.Proof.Gen.KernelIdeal.Points
import proofs.«160849_j86904368267933_1_alg».proof.Proof.Gen.KernelIdeal.Frame
import proofs.«160849_j86904368267933_1_alg».proof.Proof.Gen.ReferenceIdeal
import proofs.«160849_j86904368267933_1_alg».proof.Proof.Gen.Pre_finite_inputs
import proofs.«160849_j86904368267933_1_alg».proof.Proof.KernelValue
import proofs.«160849_j86904368267933_1_alg».proof.Proof.ReferenceRun
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both runs end with the same result, `HostChain.result` of the arguments. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
